-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x64 : Shape := ⟨2, ![128, 64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S8192x128 .f32) (main_arg1 : FVec F S8192x128 .f32) (main_arg2 : FVec F S128x64 .f32) (main_arg3 : FVec F S128x64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S8192x128 : Shape := ⟨2, ![8192, 128]⟩
abbrev S128x64 : Shape := ⟨2, ![128, 64]⟩
abbrev S1x8192x128 : Shape := ⟨3, ![1, 8192, 128]⟩
abbrev S2x8192x128 : Shape := ⟨3, ![2, 8192, 128]⟩
abbrev S1x128x64 : Shape := ⟨3, ![1, 128, 64]⟩
abbrev S2x128x64 : Shape := ⟨3, ![2, 128, 64]⟩
abbrev S2x8192x64 : Shape := ⟨3, ![2, 8192, 64]⟩
abbrev S1x2048x128 : Shape := ⟨3, ![1, 2048, 128]⟩
abbrev S1x2048x64 : Shape := ⟨3, ![1, 2048, 64]⟩
abbrev S2048x128 : Shape := ⟨2, ![2048, 128]⟩
abbrev S2048x64 : Shape := ⟨2, ![2048, 64]⟩
abbrev S2048 : Shape := ⟨1, ![2048]⟩
abbrev S2048x1 : Shape := ⟨2, ![2048, 1]⟩
abbrev S1x8192x64 : Shape := ⟨3, ![1, 8192, 64]⟩
abbrev S8192x64 : Shape := ⟨2, ![8192, 64]⟩
abbrev S2x8192x8192 : Shape := ⟨3, ![2, 8192, 8192]⟩
abbrev S1024x64 : Shape := ⟨2, ![1024, 64]⟩
abbrev S1x1024x2048 : Shape := ⟨3, ![1, 1024, 2048]⟩
abbrev S1024x2048 : Shape := ⟨2, ![1024, 2048]⟩

abbrev nBuf : Space → Nat
  | .hbm => 19
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S128x64, .f32⟩
  | .hbm, ⟨3, _⟩ => ⟨S128x64, .f32⟩
  | .hbm, ⟨4, _⟩ => ⟨S1x8192x128, .f32⟩
  | .hbm, ⟨5, _⟩ => ⟨S1x8192x128, .f32⟩
  | .hbm, ⟨6, _⟩ => ⟨S2x8192x128, .f32⟩
  | .hbm, ⟨7, _⟩ => ⟨S1x128x64, .f32⟩
  | .hbm, ⟨8, _⟩ => ⟨S1x128x64, .f32⟩
  | .hbm, ⟨9, _⟩ => ⟨S2x128x64, .f32⟩
  | .hbm, ⟨10, _⟩ => ⟨S2x8192x64, .f32⟩
  | .hbm, ⟨11, _⟩ => ⟨S1x8192x64, .f32⟩
  | .hbm, ⟨12, _⟩ => ⟨S8192x64, .f32⟩
  | .hbm, ⟨13, _⟩ => ⟨S1x8192x64, .f32⟩
  | .hbm, ⟨14, _⟩ => ⟨S8192x64, .f32⟩
  | .hbm, ⟨15, _⟩ => ⟨S1x8192x64, .f32⟩
  | .hbm, ⟨16, _⟩ => ⟨S1x8192x64, .f32⟩
  | .hbm, ⟨17, _⟩ => ⟨S2x8192x64, .f32⟩
  | .hbm, ⟨18, _⟩ => ⟨S2x8192x8192, .f32⟩
  | .local _ .vmem, ⟨0, _⟩ => ⟨S1x2048x128, .f32⟩
  | .local _ .vmem, ⟨1, _⟩ => ⟨S1x2048x128, .f32⟩
  | .local _ .vmem, ⟨2, _⟩ => ⟨S1x128x64, .f32⟩
  | .local _ .vmem, ⟨3, _⟩ => ⟨S1x128x64, .f32⟩
  | .local _ .vmem, ⟨4, _⟩ => ⟨S1x2048x64, .f32⟩
  | .local _ .vmem, ⟨5, _⟩ => ⟨S1x2048x64, .f32⟩
  | .local _ .vmem, ⟨6, _⟩ => ⟨S1024x64, .f32⟩
  | .local _ .vmem, ⟨7, _⟩ => ⟨S1024x64, .f32⟩
  | .local _ .vmem, ⟨8, _⟩ => ⟨S1x2048x64, .f32⟩
  | .local _ .vmem, ⟨9, _⟩ => ⟨S1x2048x64, .f32⟩
  | .local _ .vmem, ⟨10, _⟩ => ⟨S1x1024x2048, .f32⟩
  | .local _ .vmem, ⟨11, _⟩ => ⟨S1x1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  bcast_S8192x128_S1x8192x128_1_2 : S8192x128.BroadcastsInDim S1x8192x128 (![1, 2] : Fin 2 → Fin S1x8192x128.rank)
  concatenates_S1x8192x128_S1x8192x128_S2x8192x128_d0 : Shape.Concatenates [S1x8192x128, S1x8192x128] S2x8192x128 0
  bcast_S128x64_S1x128x64_1_2 : S128x64.BroadcastsInDim S1x128x64 (![1, 2] : Fin 2 → Fin S1x128x64.rank)
  concatenates_S1x128x64_S1x128x64_S2x128x64_d0 : Shape.Concatenates [S1x128x64, S1x128x64] S2x128x64 0
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  reduces_S2048x64_S2048 : S2048x64.Reduces [1] S2048
  shapeCasts_S2048_S2048x1 : S2048.ShapeCasts S2048x1
  broadcasts_S2048x1_S2048x64 : S2048x1.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  slices_S2x8192x64_S1x8192x64_0_0_0 : S2x8192x64.Slices ![0, 0, 0] S1x8192x64
  shapeCasts_S1x8192x64_S8192x64 : S1x8192x64.ShapeCasts S8192x64
  slices_S2x8192x64_S1x8192x64_1_0_0 : S2x8192x64.Slices ![1, 0, 0] S1x8192x64
  bcast_S8192x64_S1x8192x64_1_2 : S8192x64.BroadcastsInDim S1x8192x64 (![1, 2] : Fin 2 → Fin S1x8192x64.rank)
  concatenates_S1x8192x64_S1x8192x64_S2x8192x64_d0 : Shape.Concatenates [S1x8192x64, S1x8192x64] S2x8192x64 0
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S2048x128_S128x64_S2048x64_1_0_0_1_n_n_wf : DotDims.WF S2048x128 S128x64 S2048x64 [1] [0] [0] [1] [] []
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S2x8192x128.size a
  hwx0_0 : ∀ i : grid0.Coords, EltTy.bits .f32 = 32 ∨ (Rect.block (s := S2x8192x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S2x128x64.size a
  hwx0_1 : ∀ i : grid0.Coords, EltTy.bits .f32 = 32 ∨ (Rect.block (s := S2x128x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S2x8192x64.size a
  hwx0_2 : ∀ i : grid0.Coords, EltTy.bits .f32 = 32 ∨ (Rect.block (s := S2x8192x64) S1x2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S2x8192x64.size a
  hwx1_1 : ∀ i : grid1.Coords, EltTy.bits .f32 = 32 ∨ (Rect.block (s := S2x8192x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S2x8192x8192.size a
  hwx1_2 : ∀ i : grid1.Coords, EltTy.bits .f32 = 32 ∨ (Rect.block (s := S2x8192x8192) S1x1024x2048.size (cc1_transform_2 i) (hinb1_2 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_v2) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S128x64 : Shape := ⟨2, ![128, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩
abbrev S1x8192x8192 : Shape := ⟨3, ![1, 8192, 8192]⟩
abbrev S2x8192x8192 : Shape := ⟨3, ![2, 8192, 8192]⟩

abbrev nBuf : Space → Nat
  | .hbm => 65
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S128x64, .f32⟩
  | .hbm, ⟨3, _⟩ => ⟨S128x64, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x64, .f32⟩
  | .hbm, ⟨25, _⟩ => ⟨S8192x64, .f32⟩
  | .hbm, ⟨26, _⟩ => ⟨S64x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .i1⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x64, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1, .f32⟩
  | .hbm, ⟨39, _⟩ => ⟨S8192x64, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x64, .f32⟩
  | .hbm, ⟨48, _⟩ => ⟨S8192x64, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x64, .f32⟩
  | .hbm, ⟨53, _⟩ => ⟨S8192x64, .f32⟩
  | .hbm, ⟨54, _⟩ => ⟨S64x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S8192x8192, .i1⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S1x8192x8192, .f32⟩
  | .hbm, ⟨63, _⟩ => ⟨S1x8192x8192, .f32⟩
  | .hbm, ⟨64, _⟩ => ⟨S2x8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_call3_v0 : Ref sig .tc := ⟨.hbm, 34, rfl⟩
abbrev main_call3_cst : Ref sig .tc := ⟨.hbm, 35, rfl⟩
abbrev main_call3_v1 : Ref sig .tc := ⟨.hbm, 36, rfl⟩
abbrev main_call3_v2 : Ref sig .tc := ⟨.hbm, 37, rfl⟩
abbrev main_v18 : Ref sig .tc := ⟨.hbm, 38, rfl⟩
abbrev main_call4_v0 : Ref sig .tc := ⟨.hbm, 39, rfl⟩
abbrev main_call4_cst : Ref sig .tc := ⟨.hbm, 40, rfl⟩
abbrev main_call4_v1 : Ref sig .tc := ⟨.hbm, 41, rfl⟩
abbrev main_call4_v2 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  bcast_S8192x8192_S1x8192x8192_1_2 : S8192x8192.BroadcastsInDim S1x8192x8192 (![1, 2] : Fin 2 → Fin S1x8192x8192.rank)
  concatenates_S1x8192x8192_S1x8192x8192_S2x8192x8192_d0 : Shape.Concatenates [S1x8192x8192, S1x8192x8192] S2x8192x8192 0
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Spec.lean ====
/-
  Thresholded cosine similarities of embedded rows.

  A feature matrix `x` (8192 rows of 128) is embedded by a weight matrix `w` (128 by 64): row `r` of the embedding is
  `e_r = (∑_d x[r,d] · w[d,l])_l`. A row is brought to unit length by dividing it by `max (√(∑_l e_l²)) ε`, with `ε` the
  single-precision literal nearest 1e-8. The similarity of two unit rows is their inner product, and it is kept only
  where it is not below one half: below, it is replaced by zero. The result stacks two 8192 × 8192 tables: in the first,
  the rows of the first embedding against the rows of the second; in the second, the rows of the first embedding
  against themselves.

  Everything is on the extended reals, operation by operation as the programs spell it (the quotient, the square root,
  the maximum, the comparison and the selection are the ideal instance's own), so that both programs' results are this
  function of the four arguments with no algebraic law in between: sums are only ever re-indexed, never re-associated
  across a product or a quotient.
-/
import Idealize.ShloMosaic.PureOps.Ideal.Laws
import Idealize.ShloMosaic.Lib.ValueIdx

noncomputable section

namespace Cert.CosSim

open Idealize.ShloMosaic Idealize.ShloMosaic.ValueIdx

/-! ## Rows -/

/-- A row of 64 entries divided, entry by entry, by its Euclidean length, the length taken no smaller than the
    literal `0x322BCC77` (the single-precision neighbour of 1e-8). -/
def rowUnit (e : Fin 64 → EReal) (k : Fin 64) : EReal :=
  Ideal.div (e k) (max (Ideal.sqrt (∑ l : Fin 64, e l * e l)) (Ideal.ofBits .f32 0x322BCC77#32))

/-- The inner product of two rows of 64 entries, replaced by the zero literal where it is below the literal one half
    (`0x3F000000`). -/
def dotThr (a b : Fin 64 → EReal) : EReal :=
  Scalar.select (Ideal.cmp .olt (∑ k : Fin 64, a k * b k) (Ideal.ofBits .f32 0x3F000000#32))
    (Ideal.ofBits .f32 0x00000000#32) (∑ k : Fin 64, a k * b k)

/-! ## The shapes the arrays have -/

abbrev SFea : Shape := ⟨2, ![8192, 128]⟩
abbrev SWt : Shape := ⟨2, ![128, 64]⟩
abbrev SEmb : Shape := ⟨2, ![8192, 64]⟩
abbrev SFea2 : Shape := ⟨3, ![2, 8192, 128]⟩
abbrev SWt2 : Shape := ⟨3, ![2, 128, 64]⟩
abbrev SEmb2 : Shape := ⟨3, ![2, 8192, 64]⟩
abbrev SOut : Shape := ⟨3, ![2, 8192, 8192]⟩

/-! ## The embedding and its unit rows -/

/-- Row `r` of the product of the features by the weights. -/
def embRow (x : FVec Ideal SFea .f32) (w : FVec Ideal SWt .f32) (r : Fin 8192) (l : Fin 64) : EReal :=
  ∑ d : Fin 128, x (ix2 r d) * w (ix2 d l)

/-- Row `r` of the embedding, at unit length. -/
def unitEmb (x : FVec Ideal SFea .f32) (w : FVec Ideal SWt .f32) (r : Fin 8192) : Fin 64 → EReal :=
  rowUnit (embRow x w r)

/-! ## The result, by coordinates -/

/-- Table `g`, row `p`, column `q` of the result: unit row `p` of the first embedding against unit row `q` of the
    second embedding in table 0 and of the first embedding itself in table 1. -/
def simAt (x0 x1 : FVec Ideal SFea .f32) (w0 w1 : FVec Ideal SWt .f32) (g : Fin 2) (p q : Fin 8192) : EReal :=
  dotThr (unitEmb x0 w0 p) (if g.val = 0 then unitEmb x1 w1 q else unitEmb x0 w0 q)

/-- The whole result array. -/
def simOut (x0 x1 : FVec Ideal SFea .f32) (w0 w1 : FVec Ideal SWt .f32) : FVec Ideal SOut .f32 := fun i =>
  simAt x0 x1 w0 w1 ⟨(i 0).val, (i 0).isLt⟩ ⟨(i 1).val, (i 1).isLt⟩ ⟨(i 2).val, (i 2).isLt⟩

theorem simOut_ix3 (x0 x1 : FVec Ideal SFea .f32) (w0 w1 : FVec Ideal SWt .f32) (g : Fin 2) (p q : Fin 8192) :
    simOut x0 x1 w0 w1 (ix3 g p q) = simAt x0 x1 w0 w1 g p q := rfl

/-! ## The two stages a computation in two passes goes through -/

/-- First pass: from the two feature matrices stacked and the two weight matrices stacked, the stack of the two
    embeddings' unit rows. -/
def stage0 (X : FVec Ideal SFea2 .f32) (W : FVec Ideal SWt2 .f32) : FVec Ideal SEmb2 .f32 := fun i =>
  rowUnit (fun l => ∑ d : Fin 128,
      X (ix3 (⟨(i 0).val, (i 0).isLt⟩ : Fin 2) (⟨(i 1).val, (i 1).isLt⟩ : Fin 8192) d)
        * W (ix3 (⟨(i 0).val, (i 0).isLt⟩ : Fin 2) d l))
    ⟨(i 2).val, (i 2).isLt⟩

theorem stage0_ix3 (X : FVec Ideal SFea2 .f32) (W : FVec Ideal SWt2 .f32) (g : Fin 2) (r : Fin 8192) (k : Fin 64) :
    stage0 X W (ix3 g r k) = rowUnit (fun l => ∑ d : Fin 128, X (ix3 g r d) * W (ix3 g d l)) k := rfl

/-- Second pass: from a matrix `A` of unit rows and a stack `B` of two such matrices, table `g` holds the thresholded
    inner products of the rows of `A` with the rows of `B`'s matrix `g`. -/
def stage1 (A : FVec Ideal SEmb .f32) (B : FVec Ideal SEmb2 .f32) : FVec Ideal SOut .f32 := fun i =>
  dotThr (fun k => A (ix2 (⟨(i 1).val, (i 1).isLt⟩ : Fin 8192) k))
    (fun k => B (ix3 (⟨(i 0).val, (i 0).isLt⟩ : Fin 2) (⟨(i 2).val, (i 2).isLt⟩ : Fin 8192) k))

theorem stage1_ix3 (A : FVec Ideal SEmb .f32) (B : FVec Ideal SEmb2 .f32) (g : Fin 2) (p q : Fin 8192) :
    stage1 A B (ix3 g p q) = dotThr (fun k => A (ix2 p k)) (fun k => B (ix3 g q k)) := rfl

end Cert.CosSim

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.LibRank3Layout.lean ====
/-
  Rank-3 stacks read at an index: the layout operations, the reductions over the last axis and the plain matrix
  product that a kernel working on a stack [a, b, c] of rows meets, each read at explicit coordinates.

  A matrix [a, b] viewed as [a, b, 1] or as [a, 1, b] keeps its entries; a stack [a, b, c] flattened to [a·b, c] puts row
  (i, j) at flat row i·b + j, and back; a column stack [a, b, 1] or a row stack [a, 1, c] broadcast to [a, b, c] repeats its
  entries along the unit axis. A sum or a maximum over the last axis of a stack, read at (i, j), is the sum or the fold of
  `max` over the entries (i, j, l). The plain product of an m×k by a k×n matrix into a zero accumulator, read at (r, h), is
  the sum over the contracted coordinate of the products of the entries. The reductions and the product are at the ideal values.
-/
import Idealize.ShloMosaic.PureOps.Ideal.Laws
import Idealize.ShloMosaic.Lib.ValueIdx
import Idealize.ShloMosaic.Lib.Pipeline.Value

noncomputable section

namespace Idealize.ShloMosaic.Rank3Layout

open Idealize.ShloMosaic Idealize.ShloMosaic.ValueIdx

variable {α : Type}

/-! ## Unit axes added to a matrix -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A stack flattened to a matrix, and back -/

/-- An `[a, b, c]` array cast to `[n, c]` reads, at `(r, l)` with `r = i·b + j`, the operand at `(i, j, l)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) : shapeCast ⟨2, ![n, c]⟩ x h (ix2 r l) = x (ix3 i j l) :=
  shapeCast_apply x h _ _ (by
    rw [Shape.rowMajor_val_three, Shape.rowMajor_val_two]
    show (i.val * b + j.val) * c + l.val = r.val * c + l.val
    rw [hr])

/-- An `[n, c]` array cast to `[a, b, c]` reads, at `(i, j, l)`, the operand at `(r, l)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) : shapeCast ⟨3, ![a, b, c]⟩ x h (ix3 i j l) = x (ix2 r l) :=
  shapeCast_apply x h _ _ (by
    rw [Shape.rowMajor_val_three, Shape.rowMajor_val_two]
    show r.val * c + l.val = (i.val * b + j.val) * c + l.val
    rw [hr])

/-! ## A unit axis broadcast -/

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-! ## Reductions over the last axis, at the ideal values -/

/-- The index over `(i, j)` with `l` put on the dropped last axis is `(i, j, l)`. -/
theorem lift_last {a b c : ℕ} (h : (⟨3, ![a, b, c]⟩ : Shape).Reduces [2] ⟨2, ![a, b]⟩) (i : Fin a) (j : Fin b) (l : Fin c) :
    h.lift (ix2 i j) l = ix3 i j l := by
  funext ax; apply Fin.ext
  match ax with
  | ⟨0, _⟩ => rfl
  | ⟨1, _⟩ => rfl
  | ⟨2, _⟩ => rfl

/-- A sum over the last axis of a stack, read at `(i, j)`, is the sum of the entries `(i, j, l)`. -/
theorem multiReduction_add_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) := by
  refine (Ideal.multiReduction_add_single src acc h hφ hacc (ix2 i j)).trans ?_
  show ∑ l : Fin c, src (h.lift (ix2 i j) l) = _
  exact Finset.sum_congr rfl fun l _ => congrArg src (lift_last h i j l)

/-- A maximum over the last axis of a stack, read at `(i, j)`, is the fold of `max`, from the accumulator's value, over the
    entries `(i, j, l)`. -/
theorem multiReduction_maximumf_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun l => src (ix3 i j l)) := by
  refine (Ideal.multiReduction_maximumf_single src acc h hφ hacc (ix2 i j)).trans ?_
  show (Finset.univ : Finset (Fin c)).fold max (Ideal.ofBits φ acc) (fun l => src (h.lift (ix2 i j) l)) = _
  exact congrArg (fun f : Fin c → EReal => (Finset.univ : Finset (Fin c)).fold max (Ideal.ofBits φ acc) f)
    (funext fun l => congrArg src (lift_last h i j l))

/-! ## The plain matrix product into a zero accumulator, at the ideal values -/

/-- A kernel's product of an m×k by a k×n matrix into the zero accumulator, read at `(r, h)`. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply,
    ← Equiv.sum_comp (contrEquiv1 (⟨[1], [0], [0], [1], [], [], w⟩ : DotDims _ _ _) k rfl rfl).symm]
  refine Finset.sum_congr rfl fun l _ => ?_
  have c2 := contrEquiv1_symm_val
    (⟨[1], [0], [0], [1], [], [], w⟩ : DotDims ⟨2, ![m, k]⟩ ⟨2, ![k, n]⟩ ⟨2, ![m, n]⟩) k rfl rfl l
  have l2 : (⟨[1], [0], [0], [1], [], [], w⟩ : DotDims ⟨2, ![m, k]⟩ ⟨2, ![k, n]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r h)
      ((contrEquiv1 _ k rfl rfl).symm l) = ix2 l h := by
    funext ax; apply Fin.ext
    match ax with
    | ⟨0, _⟩ => simp [DotDims.rhsIdx]; exact c2
    | ⟨1, _⟩ => simp [DotDims.rhsIdx]; rfl
  rw [l2, r2]

end Idealize.ShloMosaic.Rank3Layout

end
-- ==== Proof.Stage0.lean ====
/-
  The first call's result as one array.

  The first call walks a grid of 2 × 4 points. At point (g, b) it reads rows 2048·b … 2048·b + 2047 of feature matrix `g`
  of the stack and the whole weight matrix `g`, multiplies them, and writes each product row divided by its length
  (kept at or above ε) into the same rows of table `g` of the result. The 8 blocks tile the result, so the array the call
  leaves is, index by index, `CosSim.stage0` of the two stacks as the call finds them.
-/
import proofs.«429272_j54683523613020_3_alg».proof.Proof.Gen.KernelIdeal.Frame
import proofs.«429272_j54683523613020_3_alg».proof.Proof.Spec
import proofs.«429272_j54683523613020_3_alg».proof.Proof.LibRowOps
import proofs.«429272_j54683523613020_3_alg».proof.Proof.LibRank3Layout
import Idealize.ShloMosaic.Lib.Pipeline.Value
import Idealize.ShloMosaic.Lib.ValueIdx
import Idealize.ShloMosaic.PureOps.Ideal.Laws

set_option maxRecDepth 16384

noncomputable section

namespace Cert.KernelIdeal.Stage0

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## What the body stores, at an index -/

open Idealize.ShloMosaic.RowOps Idealize.ShloMosaic.Rank3Layout

/-- The product of a block of feature rows by its weight matrix, at row `r` and column `h`. -/
theorem embed_apply (x0 : Vec Ideal S1x2048x128 .f32) (x1 : Vec Ideal S1x128x64 .f32) (r : Fin 2048) (h : Fin 64) :
    matmul (F := Ideal) dot_S2048x128_S128x64_S2048x64_1_0_0_1_n_n (some .fp32)
        (shapeCast S2048x128 x0 shapeCasts_S1x2048x128_S2048x128 : FVec Ideal S2048x128 .f32)
        (shapeCast S128x64 x1 shapeCasts_S1x128x64_S128x64 : FVec Ideal S128x64 .f32)
        (constant (F := Ideal) S2048x64 .f32 0x00000000#32) (ix2 r h)
      = ∑ d : Fin 128, x0 (ix3 (0 : Fin 1) r d) * x1 (ix3 (0 : Fin 1) d h) := by
  refine (matmul_plain_apply dot_S2048x128_S128x64_S2048x64_1_0_0_1_n_n_wf (some .fp32)
    (shapeCast S2048x128 x0 shapeCasts_S1x2048x128_S2048x128 : FVec Ideal S2048x128 .f32)
    (shapeCast S128x64 x1 shapeCasts_S1x128x64_S128x64 : FVec Ideal S128x64 .f32) r h).trans ?_
  refine Finset.sum_congr rfl fun d _ => ?_
  rw [shapeCast_abc_nc_apply x0 shapeCasts_S1x2048x128_S2048x128 (0 : Fin 1) r d r (by simp),
    shapeCast_abc_nc_apply x1 shapeCasts_S1x128x64_S128x64 (0 : Fin 1) d h d (by simp)]

/-- A matrix of 2048 rows of 64 with each row divided by its length (kept at or above the literal), at row `r` and
    column `k`: the row's unit vector at `k`. -/
theorem unitRows_apply (e : FVec Ideal S2048x64 .f32) (r : Fin 2048) (k : Fin 64) :
    divf e (broadcastTo S2048x64
        (maximumf
          (sqrt (shapeCast S2048x1
            (multiReduction (F := Ideal) .add [1] S2048 (mulf e e) 0x00000000#32 reduces_S2048x64_S2048 (.inl rfl) rfl)
            shapeCasts_S2048_S2048x1 : FVec Ideal S2048x1 .f32))
          (broadcast S2048x1 (Scalar.ofBits (F := Ideal) .f32 0x322BCC77#32)))
        broadcasts_S2048x1_S2048x64) (ix2 r k)
      = CosSim.rowUnit (fun l => e (ix2 r l)) k := by
  rw [divf_apply, broadcastTo_a1_ab_apply _ broadcasts_S2048x1_S2048x64 r k, maximumf_apply, broadcast_apply]
  show Ideal.div (e (ix2 r k)) (max (Ideal.sqrt ((shapeCast S2048x1
            (multiReduction (F := Ideal) .add [1] S2048 (mulf e e) 0x00000000#32 reduces_S2048x64_S2048 (.inl rfl) rfl)
            shapeCasts_S2048_S2048x1 : FVec Ideal S2048x1 .f32) (ix2 r (0 : Fin 1)))) (Ideal.ofBits .f32 0x322BCC77#32)) = _
  rw [shapeCast_a_a1_apply _ shapeCasts_S2048_S2048x1 r (0 : Fin 1)]
  refine congrArg (fun s => Ideal.div (e (ix2 r k)) (max (Ideal.sqrt s) (Ideal.ofBits .f32 0x322BCC77#32))) ?_
  exact multiReduction_add_row (mulf e e) 0x00000000#32 reduces_S2048x64_S2048 (.inl rfl) rfl r

/-- What the body stores, at an index of its block: the unit vector of the product row. -/
theorem storedBlock_apply (x0 : Vec Ideal S1x2048x128 .f32) (x1 : Vec Ideal S1x128x64 .f32) (u : Fin 1) (r : Fin 2048) (k : Fin 64) :
    k0_pay1 (F := Ideal) x0 x1 (ix3 u r k)
      = CosSim.rowUnit (fun l => ∑ d : Fin 128, x0 (ix3 (0 : Fin 1) r d) * x1 (ix3 (0 : Fin 1) d l)) k := by
  unfold k0_pay1
  refine (shapeCast_nc_abc_apply _ shapeCasts_S2048x64_S1x2048x64 u r k r (by have := u.isLt; omega)).trans ?_
  refine (unitRows_apply _ r k).trans ?_
  exact congrArg (fun e : Fin 64 → EReal => CosSim.rowUnit e k) (funext fun l => embed_apply x0 x1 r l)

/-! ## The index maps over the grid -/

/-- The offsets of a whole block: zero on each of the three axes. -/
theorem zero3 : (![0, 0, 0] : Fin 3 → Nat) = fun _ => 0 :=
  funext fun a => match a with | ⟨0, _⟩ => rfl | ⟨1, _⟩ => rfl | ⟨2, _⟩ => rfl

/-- At every point the feature block sits at the result block's table and row-block indices; the weight block at the
    result block's table index, whatever the row block; no block moves along the last axis; and the result's table
    index is below 2, its row-block index below 4. -/
theorem blockIdx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 1
    ∧ win0_2.index t (1 : Fin 3) ≤ 3
    ∧ win0_2.index t (2 : Fin 3) = 0 :=
  (by decide +kernel : ∀ t : Fin grid0.N, _)

/-- Every table and every block of 2048 rows of it is some point's result block. -/
theorem blockIdx_onto : ∀ (g : Fin 2) (b : Fin 4), ∃ t : Fin cfg0.N, win0_2.index t = ![g.val, b.val, 0] :=
  (by decide +kernel : ∀ (g : Fin 2) (b : Fin 4), ∃ t : Fin grid0.N, win0_2.index t = ![g.val, b.val, 0])

/-! ## The input blocks read where the result block sits -/

/-- Row `r`, column `d` of the feature block at point `t` is row `R` of table `g` of the feature stack, `g` the result
    block's table and `R` its row `r`. -/
theorem feaBlock_apply (c : Dev nD) (t : Fin cfg0.N) (g : Fin 2) (R : Fin 8192) (r : Fin 2048) (d : Fin 128)
    (hg : g.val = win0_2.index t (0 : Fin 3)) (hR : R.val = win0_2.index t (1 : Fin 3) * 2048 + r.val) :
    iblk0 V c 0 t (ix3 (0 : Fin 1) r d) = V c main_v2 (ix3 g R d) := by
  show V c main_v2 (((cfg0.win 0).blk t).view.emb (ix3 (0 : Fin 1) r d)) = V c main_v2 (ix3 g R d)
  refine congrArg _ ?_
  obtain ⟨e0, e1, e2, -⟩ := blockIdx_facts t
  funext a; apply Fin.ext
  match a with
  | ⟨0, _⟩ => show win0_0.index t (0 : Fin 3) * 1 + 1 * 0 = g.val; omega
  | ⟨1, _⟩ => show win0_0.index t (1 : Fin 3) * 2048 + 1 * r.val = R.val; omega
  | ⟨2, _⟩ => show win0_0.index t (2 : Fin 3) * 128 + 1 * d.val = d.val; omega

/-- Row `d`, column `l` of the weight block at point `t` is that entry of weight matrix `g`, `g` the result block's table. -/
theorem wtBlock_apply (c : Dev nD) (t : Fin cfg0.N) (g : Fin 2) (d : Fin 128) (l : Fin 64)
    (hg : g.val = win0_2.index t (0 : Fin 3)) :
    iblk0 V c 1 t (ix3 (0 : Fin 1) d l) = V c main_v5 (ix3 g d l) := by
  show V c main_v5 (((cfg0.win 1).blk t).view.emb (ix3 (0 : Fin 1) d l)) = V c main_v5 (ix3 g d l)
  refine congrArg _ ?_
  obtain ⟨-, -, -, e3, e4, e5, -⟩ := blockIdx_facts t
  funext a; apply Fin.ext
  match a with
  | ⟨0, _⟩ => show win0_1.index t (0 : Fin 3) * 1 + 1 * 0 = g.val; omega
  | ⟨1, _⟩ => show win0_1.index t (1 : Fin 3) * 128 + 1 * d.val = d.val; omega
  | ⟨2, _⟩ => show win0_1.index t (2 : Fin 3) * 64 + 1 * l.val = l.val; omega

/-! ## What a point writes back -/

/-- Point `t` writes back its block of `CosSim.stage0` of the two stacks. -/
theorem writtenBack_eq (c : Dev nD) (t : Fin cfg0.N) :
    (dat0 V c).flushed 2 t
      = ((cfg0.win 2).blk t).view.read (Elt Ideal) (CosSim.stage0 (V c main_v2) (V c main_v5)) := by
  show (cfg0.win 2).cut (grid0.coords t) ((dat0 V c).after 2 t) = _
  rw [after0_2]
  unfold out0_2
  rw [View.canon_unit_zero zero3]
  simp only [View.ld_unit_zero (S := S1x2048x128) zero3, View.ld_unit_zero (S := S1x128x64) zero3]
  funext j
  obtain ⟨u, r, k, rfl⟩ : ∃ (u : Fin 1) (r : Fin 2048) (k : Fin 64), j = ix3 u r k := ⟨j 0, j 1, j 2, eq_ix3 j⟩
  obtain ⟨-, -, -, -, -, -, b0, b1, z2⟩ := blockIdx_facts t
  -- the table and the row of the stack that this entry of the block is
  obtain ⟨g, hg⟩ : ∃ g : Fin 2, g.val = win0_2.index t (0 : Fin 3) :=
    ⟨⟨win0_2.index t (0 : Fin 3), by omega⟩, rfl⟩
  obtain ⟨R, hR⟩ : ∃ R : Fin 8192, R.val = win0_2.index t (1 : Fin 3) * 2048 + r.val :=
    ⟨⟨win0_2.index t (1 : Fin 3) * 2048 + r.val, by have := r.isLt; omega⟩, rfl⟩
  have hemb : ((cfg0.win 2).blk t).view.emb (ix3 u r k) = ix3 g R k := by
    funext a; apply Fin.ext
    match a with
    | ⟨0, _⟩ => show win0_2.index t (0 : Fin 3) * 1 + 1 * u.val = g.val; have := u.isLt; omega
    | ⟨1, _⟩ => show win0_2.index t (1 : Fin 3) * 2048 + 1 * r.val = R.val; omega
    | ⟨2, _⟩ => show win0_2.index t (2 : Fin 3) * 64 + 1 * k.val = k.val; omega
  show k0_pay1 (F := Ideal) (iblk0 V c 0 t) (iblk0 V c 1 t) (ix3 u r k)
    = CosSim.stage0 (V c main_v2) (V c main_v5) (((cfg0.win 2).blk t).view.emb (ix3 u r k))
  rw [hemb, CosSim.stage0_ix3]
  refine (storedBlock_apply (iblk0 V c 0 t) (iblk0 V c 1 t) u r k).trans ?_
  refine congrArg (fun e : Fin 64 → EReal => CosSim.rowUnit e k) (funext fun l => Finset.sum_congr rfl fun d _ => ?_)
  rw [feaBlock_apply V c t g R r d hg hR, wtBlock_apply V c t g d l hg]

/-! ## The blocks tile the result -/

/-- An index of the result is in point `t`'s block iff each coordinate is in the block's range on its axis. -/
theorem mem_resultBlock (t : Fin cfg0.N) (i : S2x8192x64.Idx) :
    i ∈ ((cfg0.win 2).blk t).view.set
      ↔ ∀ a : Fin 3, win0_2.index t a * S1x2048x64.size a ≤ (i a).val
          ∧ (i a).val < win0_2.index t a * S1x2048x64.size a + S1x2048x64.size a := by
  show i ∈ ((View.whole main_v6).slice (win0_2.rect t)).set ↔ _
  rw [View.set_slice_whole, Rect.mem_set_unit]
  exact Iff.rfl

/-- Row `R` of table `g` is in the block of the point at table `g` and row block `R / 2048`. -/
theorem resultBlocks_cover (i : S2x8192x64.Idx) :
    ∃ t : Fin cfg0.N, (cfg0.win 2).flush t = true ∧ i ∈ ((cfg0.win 2).blk t).view.set := by
  have hi0 : (i 0).val < 2 := (i 0).isLt
  have hi1 : (i 1).val < 8192 := (i 1).isLt
  have hi2 : (i 2).val < 64 := (i 2).isLt
  obtain ⟨t, ht⟩ := blockIdx_onto ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_resultBlock]
  intro a
  match a with
  | ⟨0, _⟩ =>
    show win0_2.index t (0 : Fin 3) * 1 ≤ (i 0).val ∧ (i 0).val < win0_2.index t (0 : Fin 3) * 1 + 1; omega
  | ⟨1, _⟩ =>
    show win0_2.index t (1 : Fin 3) * 2048 ≤ (i 1).val ∧ (i 1).val < win0_2.index t (1 : Fin 3) * 2048 + 2048; omega
  | ⟨2, _⟩ =>
    show win0_2.index t (2 : Fin 3) * 64 ≤ (i 2).val ∧ (i 2).val < win0_2.index t (2 : Fin 3) * 64 + 64; omega

/-- After the first call, its result array is `CosSim.stage0` of the stacked features and the stacked weights as the
    call finds them. -/
theorem value (c : Dev nD) : (dat0 V c).arrAt 2 cfg0.N = CosSim.stage0 (V c main_v2) (V c main_v5) :=
  (dat0 V c).arrAt_eq_of_cover 2 (CosSim.stage0 (V c main_v2) (V c main_v5)) (fun t _ => writtenBack_eq V c t)
    resultBlocks_cover

end Cert.KernelIdeal.Stage0

end
-- ==== Proof.LibMatmulRowsByRows.lean ====
/-
  The product of a matrix by the transpose of another, read at an index.

  A kernel's matrix product whose dimension numbers contract the LAST axis of both operands takes an m×k matrix `A` and
  an n×k matrix `B` to the m×n matrix of the inner products of the rows of the one with the rows of the other. Into a zero
  accumulator and at the ideal values, its entry (r, h) is the sum over the contracted coordinate `l` of
  `A (r, l) * B (h, l)`.
-/
import Idealize.ShloMosaic.PureOps.Ideal.Laws
import Idealize.ShloMosaic.Lib.ValueIdx

noncomputable section

namespace Idealize.ShloMosaic.MatmulRowsByRows

open Idealize.ShloMosaic Idealize.ShloMosaic.ValueIdx

/-- A kernel's product of an m×k matrix by an n×k matrix, contracting the last axis of both, into the zero accumulator,
    read at `(r, h)`: the inner product of row `r` of the first with row `h` of the second. -/
theorem matmul_rows_by_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (h : Fin n) :
    FloatOps.matmul (⟨[1], [1], [0], [0], [], [], w⟩ : DotDims _ _ _) prec A B
        (constant ⟨2, ![m, n]⟩ .f32 0x00000000#32) (ix2 r h)
      = ∑ l : Fin k, A (ix2 r l) * B (ix2 h l) := by
  rw [Ideal.matmul_constant_zero_apply,
    ← Equiv.sum_comp (contrEquiv1 (⟨[1], [1], [0], [0], [], [], w⟩ : DotDims _ _ _) k rfl rfl).symm]
  refine Finset.sum_congr rfl fun l _ => ?_
  have c2 := contrEquiv1_symm_val
    (⟨[1], [1], [0], [0], [], [], w⟩ : DotDims ⟨2, ![m, k]⟩ ⟨2, ![n, k]⟩ ⟨2, ![m, n]⟩) k rfl rfl l
  have l2 : (⟨[1], [1], [0], [0], [], [], w⟩ : DotDims ⟨2, ![m, k]⟩ ⟨2, ![n, k]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 r h)
      ((contrEquiv1 _ k rfl rfl).symm l) = ix2 h l := by
    funext ax; apply Fin.ext
    match ax with
    | ⟨0, _⟩ => simp [DotDims.rhsIdx]; rfl
    | ⟨1, _⟩ => simp [DotDims.rhsIdx]; exact c2
  rw [l2, r2]

end Idealize.ShloMosaic.MatmulRowsByRows

end
-- ==== Proof.Stage1.lean ====
/-
  The second call's result as one array.

  The second call walks a grid of 2 × 8 × 4 points. At point (g, a, b) it reads rows 1024·a … of the matrix `A` of unit
  rows and rows 2048·b … of matrix `g` of the stack `B`, takes all inner products of a row of the one with a row of the
  other, replaces those below one half by zero, and writes the 1024 × 2048 tile at (1024·a, 2048·b) of table `g`. The 64
  tiles tile the result, so the array the call leaves is, index by index, `CosSim.stage1` of `A` and `B` as the call finds
  them.
-/
import proofs.«429272_j54683523613020_3_alg».proof.Proof.Gen.KernelIdeal.Frame
import proofs.«429272_j54683523613020_3_alg».proof.Proof.Spec
import proofs.«429272_j54683523613020_3_alg».proof.Proof.LibRank3Layout
import proofs.«429272_j54683523613020_3_alg».proof.Proof.LibMatmulRowsByRows
import Idealize.ShloMosaic.Lib.Pipeline.Value
import Idealize.ShloMosaic.Lib.ValueIdx
import Idealize.ShloMosaic.PureOps.Ideal.Laws

set_option maxRecDepth 16384

noncomputable section

namespace Cert.KernelIdeal.Stage1

open Cert.KernelIdeal Cert.KernelIdeal.Gen Idealize.ShloMosaic Idealize.ShloMosaic.TcCoe Idealize.ShloMosaic.ValueIdx
open Idealize.ShloMosaic.Pipeline (Dat)

/-! ## A tile's entry: one thresholded inner product -/

/-- The product of a block `x` of 1024 rows by a block `y` of 2048 rows, contracting the rows' 64 entries, holds at
    (p, q) the inner product of row `p` of `x` with row `q` of `y`. -/
theorem rows_product_apply (x : FVec Ideal S1024x64 .f32) (y : FVec Ideal S1x2048x64 .f32) (p : Fin 1024) (q : Fin 2048) :
    FloatOps.matmul (F := Ideal) dot_S1024x64_S2048x64_S1024x2048_1_1_0_0_n_n none x
        (shapeCast S2048x64 y shapeCasts_S1x2048x64_S2048x64) (constant (F := Ideal) S1024x2048 .f32 0x00000000#32) (ix2 p q)
      = ∑ k : Fin 64, x (ix2 p k) * y (ix3 (0 : Fin 1) q k) := by
  refine (MatmulRowsByRows.matmul_rows_by_rows_apply dot_S1024x64_S2048x64_S1024x2048_1_1_0_0_n_n_wf none x _ p q).trans ?_
  refine Finset.sum_congr rfl fun k _ => ?_
  rw [Rank3Layout.shapeCast_abc_nc_apply y _ (0 : Fin 1) q k q (by simp)]

/-- The tile computed from a block `x` of 1024 rows and a block `y` of 2048 rows holds, at (p, q), the inner product of
    row `p` of `x` with row `q` of `y`, replaced by zero where it is below one half. -/
theorem tile_apply (x : Vec Ideal S1024x64 .f32) (y : Vec Ideal S1x2048x64 .f32) (u : Fin 1) (p : Fin 1024) (q : Fin 2048) :
    k1_pay1 (F := Ideal) x y (ix3 u p q)
      = CosSim.dotThr (fun k => x (ix2 p k)) (fun k => y (ix3 (0 : Fin 1) q k)) := by
  have hu : u.val = 0 := by omega
  unfold k1_pay1
  refine (Rank3Layout.shapeCast_nc_abc_apply _ _ u p q p (by rw [hu]; omega)).trans ?_
  rw [select_apply, cmpf_apply, broadcast_apply, broadcast_apply, shapeCast_self]
  refine (congrArg (fun s : EReal => Scalar.select (FloatOps.cmpf (F := Ideal) .olt s (Scalar.ofBits .f32 0x3F000000#32))
      (Scalar.ofBits (F := Ideal) .f32 0x00000000#32) s) (rows_product_apply x y p q)).trans ?_
  rfl

/-! ## Where the blocks sit -/

/-- The index maps over the grid: the tile's table, row block and column block each stay in range; the first operand's
    block is the tile's row block, the second operand's block is the tile's column block of the tile's table. -/
theorem blocks_at : ∀ t : Fin cfg1.N, win1_2.index t (0 : Fin 3) ≤ 1 ∧ win1_2.index t (1 : Fin 3) ≤ 7
    ∧ win1_2.index t (2 : Fin 3) ≤ 3
    ∧ win1_0.index t (0 : Fin 2) = win1_2.index t (1 : Fin 3) ∧ win1_0.index t (1 : Fin 2) = 0
    ∧ win1_1.index t (0 : Fin 3) = win1_2.index t (0 : Fin 3) ∧ win1_1.index t (1 : Fin 3) = win1_2.index t (2 : Fin 3)
    ∧ win1_1.index t (2 : Fin 3) = 0 :=
  (by decide +kernel : ∀ t : Fin grid1.N, _)

/-- Every tile is some point's. -/
theorem tile_of : ∀ (g : Fin 2) (a : Fin 8) (b : Fin 4), ∃ t : Fin cfg1.N, win1_2.index t = ![g.val, a.val, b.val] :=
  (by decide +kernel : ∀ (g : Fin 2) (a : Fin 8) (b : Fin 4), ∃ t : Fin grid1.N, win1_2.index t = ![g.val, a.val, b.val])

theorem zeros2 : (![0, 0] : Fin 2 → Nat) = fun _ => 0 := funext fun a => by fin_cases a <;> rfl

theorem zeros3 : (![0, 0, 0] : Fin 3 → Nat) = fun _ => 0 := funext fun a => by fin_cases a <;> rfl

variable (V : (c : Dev nD) → (b : Ref sig .tc) → Buf (Elt Ideal) ((c : Thread nD τ).loc b))

/-- Row `p` of the first operand's block at a point is row `P` of `A`, `P` being `p` counted from the tile's first row. -/
theorem rowsA_apply (c : Dev nD) (t : Fin cfg1.N) (p : Fin 1024) (k : Fin 64) (P : Fin 8192)
    (hP : P.val = win1_2.index t (1 : Fin 3) * 1024 + p.val) :
    iblk1 V c 0 t (ix2 p k) = V c main_v8 (ix2 P k) := by
  obtain ⟨b0, b1, b2, e0, e1, e2, e3, e4⟩ := blocks_at t
  show V c main_v8 (((cfg1.win 0).blk t).view.emb (ix2 p k)) = _
  refine congrArg (V c main_v8) (funext fun a => Fin.ext ?_)
  match a with
  | ⟨0, _⟩ => show win1_0.index t (0 : Fin 2) * 1024 + 1 * p.val = P.val; omega
  | ⟨1, _⟩ => show win1_0.index t (1 : Fin 2) * 64 + 1 * k.val = k.val; omega

/-- Row `q` of the second operand's block at a point is row `Q` of matrix `g` of `B`, `g` the tile's table and `Q` being
    `q` counted from the tile's first column. -/
theorem rowsB_apply (c : Dev nD) (t : Fin cfg1.N) (q : Fin 2048) (k : Fin 64) (g : Fin 2) (Q : Fin 8192)
    (hg : g.val = win1_2.index t (0 : Fin 3)) (hQ : Q.val = win1_2.index t (2 : Fin 3) * 2048 + q.val) :
    iblk1 V c 1 t (ix3 (0 : Fin 1) q k) = V c main_v13 (ix3 g Q k) := by
  obtain ⟨b0, b1, b2, e0, e1, e2, e3, e4⟩ := blocks_at t
  show V c main_v13 (((cfg1.win 1).blk t).view.emb (ix3 (0 : Fin 1) q k)) = _
  refine congrArg (V c main_v13) (funext fun a => Fin.ext ?_)
  match a with
  | ⟨0, _⟩ => show win1_1.index t (0 : Fin 3) * 1 + 1 * (0 : Fin 1).val = g.val; simp only [Fin.val_zero]; omega
  | ⟨1, _⟩ => show win1_1.index t (1 : Fin 3) * 2048 + 1 * q.val = Q.val; omega
  | ⟨2, _⟩ => show win1_1.index t (2 : Fin 3) * 64 + 1 * k.val = k.val; omega

/-- Entry (p, q) of a point's tile sits at (g, P, Q) of the result. -/
theorem tile_at (t : Fin cfg1.N) (u : Fin 1) (p : Fin 1024) (q : Fin 2048) (g : Fin 2) (P Q : Fin 8192)
    (hg : g.val = win1_2.index t (0 : Fin 3)) (hP : P.val = win1_2.index t (1 : Fin 3) * 1024 + p.val)
    (hQ : Q.val = win1_2.index t (2 : Fin 3) * 2048 + q.val) :
    ((cfg1.win 2).blk t).view.emb (ix3 u p q) = (ix3 g P Q : S2x8192x8192.Idx) := by
  have hu : u.val = 0 := by omega
  refine funext fun a => Fin.ext ?_
  match a with
  | ⟨0, _⟩ => show win1_2.index t (0 : Fin 3) * 1 + 1 * u.val = g.val; omega
  | ⟨1, _⟩ => show win1_2.index t (1 : Fin 3) * 1024 + 1 * p.val = P.val; omega
  | ⟨2, _⟩ => show win1_2.index t (2 : Fin 3) * 2048 + 1 * q.val = Q.val; omega

/-! ## What a point writes back -/

/-- What point `t` writes back is its tile of `CosSim.stage1` of `A` and `B`. -/
theorem flushed_tile (c : Dev nD) (t : Fin cfg1.N) :
    (dat1 V c).flushed 2 t
      = ((cfg1.win 2).blk t).view.read (Elt Ideal) (CosSim.stage1 (V c main_v8) (V c main_v13)) := by
  show (cfg1.win 2).cut (grid1.coords t) ((dat1 V c).after 2 t) = _
  rw [after1_2]
  unfold out1_2
  rw [View.canon_unit_zero zeros3]
  simp only [View.ld_unit_zero (S := S1024x64) zeros2, View.ld_unit_zero (S := S1x2048x64) zeros3]
  obtain ⟨b0, b1, b2, e0, e1, e2, e3, e4⟩ := blocks_at t
  funext j
  obtain ⟨u, p, q, rfl⟩ : ∃ (u : Fin 1) (p : Fin 1024) (q : Fin 2048), j = ix3 u p q := ⟨j 0, j 1, j 2, eq_ix3 j⟩
  show k1_pay1 (F := Ideal) (iblk1 V c 0 t) (iblk1 V c 1 t) (ix3 u p q)
    = CosSim.stage1 (V c main_v8) (V c main_v13) (((cfg1.win 2).blk t).view.emb (ix3 u p q))
  refine (tile_apply _ _ u p q).trans ?_
  have hp : p.val < 1024 := p.isLt
  have hq : q.val < 2048 := q.isLt
  rw [tile_at t u p q ⟨win1_2.index t (0 : Fin 3), by omega⟩ ⟨win1_2.index t (1 : Fin 3) * 1024 + p.val, by omega⟩
    ⟨win1_2.index t (2 : Fin 3) * 2048 + q.val, by omega⟩ rfl rfl rfl, CosSim.stage1_ix3]
  exact congrArg₂ CosSim.dotThr (funext fun k => rowsA_apply V c t p k _ rfl) (funext fun k => rowsB_apply V c t q k _ _ rfl rfl)

/-! ## The tiles cover the result -/

/-- An index of the result is in point `t`'s tile iff each coordinate is in the tile's range on its axis. -/
theorem mem_tile (t : Fin cfg1.N) (i : S2x8192x8192.Idx) :
    i ∈ ((cfg1.win 2).blk t).view.set ↔ ∀ a : Fin 3, win1_2.index t a * S1x1024x2048.size a ≤ (i a).val
      ∧ (i a).val < win1_2.index t a * S1x1024x2048.size a + S1x1024x2048.size a := by
  show i ∈ ((View.whole main_v14).slice (win1_2.rect t)).set ↔ _
  rw [View.set_slice_whole, Rect.mem_set_unit]
  exact Iff.rfl

/-- Index (g, P, Q) of the result is in the tile of table `g`, row block `P / 1024`, column block `Q / 2048`. -/
theorem tiles_cover (i : S2x8192x8192.Idx) :
    ∃ t : Fin cfg1.N, (cfg1.win 2).flush t = true ∧ i ∈ ((cfg1.win 2).blk t).view.set := by
  have h0 : (i 0).val < 2 := (i 0).isLt
  have h1 : (i 1).val < 8192 := (i 1).isLt
  have h2 : (i 2).val < 8192 := (i 2).isLt
  obtain ⟨t, ht⟩ := tile_of ⟨(i 0).val, h0⟩ ⟨(i 1).val / 1024, by omega⟩ ⟨(i 2).val / 2048, by omega⟩
  have q0 : win1_2.index t (0 : Fin 3) = (i 0).val := congrFun ht 0
  have q1 : win1_2.index t (1 : Fin 3) = (i 1).val / 1024 := congrFun ht 1
  have q2 : win1_2.index t (2 : Fin 3) = (i 2).val / 2048 := congrFun ht 2
  refine ⟨t, flush1_2 t, ?_⟩
  rw [mem_tile]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 1024 ≤ (i 1).val ∧ (i 1).val < win1_2.index t (1 : Fin 3) * 1024 + 1024
    omega
  | ⟨2, _⟩ =>
    show win1_2.index t (2 : Fin 3) * 2048 ≤ (i 2).val ∧ (i 2).val < win1_2.index t (2 : Fin 3) * 2048 + 2048
    omega

/-! ## The result -/

/-- After the second call, its result array is `CosSim.stage1` of the matrix of unit rows and the stack of two such
    matrices as the call finds them. -/
theorem value (c : Dev nD) : (dat1 V c).arrAt 2 cfg1.N = CosSim.stage1 (V c main_v8) (V c main_v13) :=
  (dat1 V c).arrAt_eq_of_cover 2 (CosSim.stage1 (V c main_v8) (V c main_v13)) (fun t _ => flushed_tile V c t) tiles_cover

end Cert.KernelIdeal.Stage1

end
-- ==== Proof.HostGlue.lean ====
/-
  The host operations around the two calls, read at an index.

  Before the first call the two feature matrices are stacked along a new leading axis, and so are the two weight
  matrices: entry (g, r, d) of a stack is entry (r, d) of matrix `g`. Between the calls, table 0 of the first call's
  result is taken out as the matrix `A`, and the two tables are stacked again in the opposite order: entry (g, q, k) of
  the new stack is entry (1 − g, q, k) of the first call's result.
-/
import proofs.«429272_j54683523613020_3_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.HostGlue

open Cert.KernelIdeal Cert.KernelIdeal.Gen Idealize.ShloMosaic Idealize.ShloMosaic.TcCoe Idealize.ShloMosaic.ValueIdx
open Idealize.ShloMosaic.StableHlo

/-! ## Two matrices stacked along a new leading axis -/

/-- A matrix given a leading unit axis keeps its entries. -/
theorem lead_apply {a b : ℕ} {α : Type} (x : (⟨2, ![a, b]⟩ : Shape).Idx → α)
    (h : (⟨2, ![a, b]⟩ : Shape).BroadcastsInDim ⟨3, ![1, a, b]⟩ (![1, 2] : Fin 2 → Fin 3)) (ha : a ≠ 1) (hb : b ≠ 1)
    (u : Fin 1) (r : Fin a) (d : Fin b) :
    broadcastInDim ⟨3, ![1, a, b]⟩ ![1, 2] h x (ix3 u r d) = x (ix2 r d) :=
  broadcastInDim_apply _ h x (ix3 u r d) (ix2 r d) fun ax => match ax with
    | ⟨0, _⟩ => by show r.val = if a = 1 then 0 else r.val; rw [if_neg ha]
    | ⟨1, _⟩ => by show d.val = if b = 1 then 0 else d.val; rw [if_neg hb]

/-- Two matrices, each with a leading unit axis, joined along it: table `g` of the stack is matrix `g`. -/
theorem stack_apply {a b : ℕ} {α : Type} (x y : (⟨2, ![a, b]⟩ : Shape).Idx → α)
    (h : (⟨2, ![a, b]⟩ : Shape).BroadcastsInDim ⟨3, ![1, a, b]⟩ (![1, 2] : Fin 2 → Fin 3))
    (hc : Shape.Concatenates [(⟨3, ![1, a, b]⟩ : Shape), ⟨3, ![1, a, b]⟩] ⟨3, ![2, a, b]⟩ 0) (ha : a ≠ 1) (hb : b ≠ 1)
    (g : Fin 2) (r : Fin a) (d : Fin b) :
    concatenate ⟨3, ![2, a, b]⟩ 0 [⟨⟨3, ![1, a, b]⟩, broadcastInDim ⟨3, ![1, a, b]⟩ ![1, 2] h x⟩,
        ⟨⟨3, ![1, a, b]⟩, broadcastInDim ⟨3, ![1, a, b]⟩ ![1, 2] h y⟩] hc (ix3 g r d)
      = if g.val = 0 then x (ix2 r d) else y (ix2 r d) := by
  by_cases hg : g.val = 0
  · rw [if_pos hg]
    refine (concatenate_pair_apply_left (t := ⟨3, ![2, a, b]⟩) (s₁ := ⟨3, ![1, a, b]⟩) (s₂ := ⟨3, ![1, a, b]⟩) 0 _ _ hc
      (ix3 g r d) rfl (ix3 (0 : Fin 1) r d) fun bx => ?_).trans
      (lead_apply x h ha hb 0 r d)
    match bx with
    | ⟨0, _⟩ => exact hg.symm
    | ⟨1, _⟩ => rfl
    | ⟨2, _⟩ => rfl
  · rw [if_neg hg]
    refine (concatenate_pair_apply_right (t := ⟨3, ![2, a, b]⟩) (s₁ := ⟨3, ![1, a, b]⟩) (s₂ := ⟨3, ![1, a, b]⟩) 0 _ _ hc
      (ix3 g r d) rfl rfl (ix3 (0 : Fin 1) r d) (fun bx hbx => ?_) ?_).trans
      (lead_apply y h ha hb 0 r d)
    · match bx with
      | ⟨0, _⟩ => exact absurd rfl hbx
      | ⟨1, _⟩ => rfl
      | ⟨2, _⟩ => rfl
    · show 0 + 1 = g.val
      have := g.isLt; omega

/-! ## One table of a stack taken out as a matrix -/

/-- Table `g` of a stack sliced out (a leading unit axis left) and flattened to a matrix keeps its entries: entry (r, k)
    of the matrix is entry (g, r, k) of the stack. -/
theorem table_apply {n a b : ℕ} {α : Type} (Y : (⟨3, ![n, a, b]⟩ : Shape).Idx → α) (o : ℕ) (g : Fin n)
    (hs : (⟨3, ![n, a, b]⟩ : Shape).Slices ![o, 0, 0] ⟨3, ![1, a, b]⟩) (ho : o = g.val)
    (hc : (⟨3, ![1, a, b]⟩ : Shape).ShapeCasts ⟨2, ![a, b]⟩) (r : Fin a) (k : Fin b) :
    shapeCast ⟨2, ![a, b]⟩ (extractStridedSlice ⟨3, ![1, a, b]⟩ ![o, 0, 0] Y hs) hc (ix2 r k) = Y (ix3 g r k) := by
  refine (shapeCast_apply _ hc (ix2 r k) (ix3 (0 : Fin 1) r k) ?_).trans ?_
  · rw [Shape.rowMajor_val_three, Shape.rowMajor_val_two]
    show (0 * a + r.val) * b + k.val = r.val * b + k.val
    rw [Nat.zero_mul, Nat.zero_add]
  · exact extractStridedSlice_apply _ Y hs (ix3 (0 : Fin 1) r k) (ix3 g r k) fun ax => match ax with
      | ⟨0, _⟩ => by show g.val = o + 0; omega
      | ⟨1, _⟩ => by show r.val = 0 + r.val; omega
      | ⟨2, _⟩ => by show k.val = 0 + k.val; omega

variable (m : (ℓ : Loc nD τ sig) → Buf (Elt Ideal) ℓ) (ρ : Dev nD → PrngReg)

/-- The stacked features, as the first call finds them. -/
theorem V1_v2 (c : Dev nD) (g : Fin 2) (r : Fin 8192) (d : Fin 128) :
    V1 m ρ c main_v2 (ix3 g r d)
      = if g.val = 0 then m ((c : Thread nD τ).loc main_arg0) (ix2 r d) else m ((c : Thread nD τ).loc main_arg1) (ix2 r d) := by
  have e : (V1 m ρ c main_v2 : S2x8192x128.Idx → EReal)
      = concatenate S2x8192x128 0 [⟨S1x8192x128, broadcastInDim S1x8192x128 ![1, 2] bcast_S8192x128_S1x8192x128_1_2 (m ((c : Thread nD τ).loc main_arg0))⟩,
          ⟨S1x8192x128, broadcastInDim S1x8192x128 ![1, 2] bcast_S8192x128_S1x8192x128_1_2 (m ((c : Thread nD τ).loc main_arg1))⟩]
          concatenates_S1x8192x128_S1x8192x128_S2x8192x128_d0 := by
    dsimp only [V1, W1, W0, hostOps0]; after_results
  rw [e]
  exact stack_apply _ _ bcast_S8192x128_S1x8192x128_1_2 concatenates_S1x8192x128_S1x8192x128_S2x8192x128_d0 (by decide) (by decide) g r d

/-- The stacked weights, as the first call finds them. -/
theorem V1_v5 (c : Dev nD) (g : Fin 2) (d : Fin 128) (l : Fin 64) :
    V1 m ρ c main_v5 (ix3 g d l)
      = if g.val = 0 then m ((c : Thread nD τ).loc main_arg2) (ix2 d l) else m ((c : Thread nD τ).loc main_arg3) (ix2 d l) := by
  have e : (V1 m ρ c main_v5 : S2x128x64.Idx → EReal)
      = concatenate S2x128x64 0 [⟨S1x128x64, broadcastInDim S1x128x64 ![1, 2] bcast_S128x64_S1x128x64_1_2 (m ((c : Thread nD τ).loc main_arg2))⟩,
          ⟨S1x128x64, broadcastInDim S1x128x64 ![1, 2] bcast_S128x64_S1x128x64_1_2 (m ((c : Thread nD τ).loc main_arg3))⟩]
          concatenates_S1x128x64_S1x128x64_S2x128x64_d0 := by
    dsimp only [V1, W1, W0, hostOps0]; after_results
  rw [e]
  exact stack_apply _ _ bcast_S128x64_S1x128x64_1_2 concatenates_S1x128x64_S1x128x64_S2x128x64_d0 (by decide) (by decide) g d l

/-- The matrix `A` the second call finds: table 0 of the first call's result. -/
theorem V3_v8 (c : Dev nD) (p : Fin 8192) (k : Fin 64) :
    V3 m ρ c main_v8 (ix2 p k) = W2 m ρ c (Proc.devRef .tc main_v6) (ix3 (0 : Fin 2) p k) := by
  dsimp only [V3, W3, hostOps1]
  after_results
  show shapeCast S8192x64 (extractStridedSlice S1x8192x64 ![0, 0, 0] (W2 m ρ c (Proc.devRef .tc main_v6))
      slices_S2x8192x64_S1x8192x64_0_0_0) shapeCasts_S1x8192x64_S8192x64 (ix2 p k) = _
  exact table_apply _ 0 (0 : Fin 2) slices_S2x8192x64_S1x8192x64_0_0_0 rfl shapeCasts_S1x8192x64_S8192x64 p k

/-- The stack `B` the second call finds: the first call's two tables in the opposite order. -/
theorem V3_v13 (c : Dev nD) (g : Fin 2) (q : Fin 8192) (k : Fin 64) :
    V3 m ρ c main_v13 (ix3 g q k)
      = W2 m ρ c (Proc.devRef .tc main_v6) (ix3 (if g.val = 0 then (1 : Fin 2) else (0 : Fin 2)) q k) := by
  dsimp only [V3, W3, hostOps1]
  after_results
  show concatenate S2x8192x64 0
      [⟨S1x8192x64, broadcastInDim S1x8192x64 ![1, 2] bcast_S8192x64_S1x8192x64_1_2
          (shapeCast S8192x64 (extractStridedSlice S1x8192x64 ![1, 0, 0] (W2 m ρ c (Proc.devRef .tc main_v6))
            slices_S2x8192x64_S1x8192x64_1_0_0) shapeCasts_S1x8192x64_S8192x64)⟩,
        ⟨S1x8192x64, broadcastInDim S1x8192x64 ![1, 2] bcast_S8192x64_S1x8192x64_1_2
          (shapeCast S8192x64 (extractStridedSlice S1x8192x64 ![0, 0, 0] (W2 m ρ c (Proc.devRef .tc main_v6))
            slices_S2x8192x64_S1x8192x64_0_0_0) shapeCasts_S1x8192x64_S8192x64)⟩]
      concatenates_S1x8192x64_S1x8192x64_S2x8192x64_d0 (ix3 g q k) = _
  rw [stack_apply _ _ bcast_S8192x64_S1x8192x64_1_2 concatenates_S1x8192x64_S1x8192x64_S2x8192x64_d0 (by decide) (by decide) g q k]
  by_cases hg : g.val = 0
  · rw [if_pos hg, if_pos hg]
    exact table_apply _ 1 (1 : Fin 2) slices_S2x8192x64_S1x8192x64_1_0_0 rfl shapeCasts_S1x8192x64_S8192x64 q k
  · rw [if_neg hg, if_neg hg]
    exact table_apply _ 0 (0 : Fin 2) slices_S2x8192x64_S1x8192x64_0_0_0 rfl shapeCasts_S1x8192x64_S8192x64 q k

end Cert.KernelIdeal.HostGlue

end
-- ==== Proof.KernelValue.lean ====
/-
  The idealized kernel's result as a function of its four arguments.

  The second call's result is `CosSim.stage1` of what the host operations between the calls make of the first call's
  result, which is `CosSim.stage0` of the stacked arguments. Table by table: table `g` of the first call's result holds
  the unit rows of the embedding of feature matrix `g` by weight matrix `g`; the second call pairs table 0 with the two
  tables in the opposite order, so its table 0 pairs the first embedding with the second and its table 1 pairs the
  first embedding with itself: `CosSim.simOut`.
-/
import proofs.«429272_j54683523613020_3_alg».proof.Proof.Stage0
import proofs.«429272_j54683523613020_3_alg».proof.Proof.Stage1
import proofs.«429272_j54683523613020_3_alg».proof.Proof.HostGlue

set_option maxRecDepth 16384

noncomputable section

namespace Cert.CosSim

open Idealize.ShloMosaic Idealize.ShloMosaic.ValueIdx

/-- Where table `g` of the stacked features is the matrix `x` on row `r` and table `g` of the stacked weights is the
    matrix `w`, row `r` of table `g` of the first pass is row `r` of the unit rows of `x · w`. -/
theorem stage0_eq_unitEmb (X : FVec Ideal SFea2 .f32) (W : FVec Ideal SWt2 .f32) (x : FVec Ideal SFea .f32)
    (w : FVec Ideal SWt .f32) (g : Fin 2) (r : Fin 8192) (hX : ∀ d : Fin 128, X (ix3 g r d) = x (ix2 r d))
    (hW : ∀ (d : Fin 128) (l : Fin 64), W (ix3 g d l) = w (ix2 d l)) (k : Fin 64) :
    stage0 X W (ix3 g r k) = unitEmb x w r k := by
  rw [stage0_ix3]
  unfold unitEmb embRow
  exact congrArg (fun e : Fin 64 → EReal => rowUnit e k)
    (funext fun l => Finset.sum_congr rfl fun d _ => by rw [hX d, hW d l])

/-- Where row `p` of `A` is the row `a` and row `q` of table `g` of `B` is the row `b`, entry (g, p, q) of the second pass
    is their thresholded inner product. -/
theorem stage1_eq_dotThr (A : FVec Ideal SEmb .f32) (B : FVec Ideal SEmb2 .f32) (a b : Fin 64 → EReal) (g : Fin 2)
    (p q : Fin 8192) (hA : ∀ k : Fin 64, A (ix2 p k) = a k) (hB : ∀ k : Fin 64, B (ix3 g q k) = b k) :
    stage1 A B (ix3 g p q) = dotThr a b := by
  rw [stage1_ix3, funext hA, funext hB]

end Cert.CosSim

namespace Cert.KernelIdeal.ResultValue

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg)

/-- Table 0 of the first call's result, as the second stretch of host operations finds it: the unit rows of the
    embedding of the first feature matrix by the first weight matrix. -/
theorem first_result_zero (c : Dev nD) (r : Fin 8192) (k : Fin 64) :
    W2 m ρ c (Proc.devRef .tc main_v6) (ix3 (0 : Fin 2) r k)
      = CosSim.unitEmb (m ((c : Thread nD τ).loc main_arg0)) (m ((c : Thread nD τ).loc main_arg2)) r k := by
  have h0 : W2 m ρ c (Proc.devRef .tc main_v6) = (dat0 (V1 m ρ) c).arrAt 2 cfg0.N := W2_arr m ρ c 2
  rw [h0, Stage0.value (V1 m ρ) c]
  exact CosSim.stage0_eq_unitEmb _ _ _ _ (0 : Fin 2) r
    (fun d => by rw [HostGlue.V1_v2, if_pos (show ((0 : Fin 2) : ℕ) = 0 from rfl)])
    (fun d l => by rw [HostGlue.V1_v5, if_pos (show ((0 : Fin 2) : ℕ) = 0 from rfl)]) k

/-- Table 1 of the first call's result: the unit rows of the embedding of the second feature matrix by the second
    weight matrix. -/
theorem first_result_one (c : Dev nD) (r : Fin 8192) (k : Fin 64) :
    W2 m ρ c (Proc.devRef .tc main_v6) (ix3 (1 : Fin 2) r k)
      = CosSim.unitEmb (m ((c : Thread nD τ).loc main_arg1)) (m ((c : Thread nD τ).loc main_arg3)) r k := by
  have h0 : W2 m ρ c (Proc.devRef .tc main_v6) = (dat0 (V1 m ρ) c).arrAt 2 cfg0.N := W2_arr m ρ c 2
  rw [h0, Stage0.value (V1 m ρ) c]
  exact CosSim.stage0_eq_unitEmb _ _ _ _ (1 : Fin 2) r
    (fun d => by rw [HostGlue.V1_v2, if_neg (show ¬ ((1 : Fin 2) : ℕ) = 0 by decide)])
    (fun d l => by rw [HostGlue.V1_v5, if_neg (show ¬ ((1 : Fin 2) : ℕ) = 0 by decide)]) k

/-- The last boundary's contents of the result buffer. -/
theorem result_value (c : Dev nD) :
    W4 m ρ c (Proc.devRef .tc main_v14)
      = CosSim.simOut (m ((c : Thread nD τ).loc main_arg0)) (m ((c : Thread nD τ).loc main_arg1))
          (m ((c : Thread nD τ).loc main_arg2)) (m ((c : Thread nD τ).loc main_arg3)) := by
  have h1 : W4 m ρ c (Proc.devRef .tc main_v14) = (dat1 (V3 m ρ) c).arrAt 2 cfg1.N := W4_arr m ρ c 2
  rw [h1, Stage1.value (V3 m ρ) c]
  funext i
  obtain ⟨g, p, q, rfl⟩ : ∃ (g : Fin 2) (p q : Fin 8192), i = ix3 g p q := ⟨i 0, i 1, i 2, eq_ix3 i⟩
  rw [CosSim.simOut_ix3]
  unfold CosSim.simAt
  refine CosSim.stage1_eq_dotThr _ _ _ _ g p q
    (fun k => by rw [HostGlue.V3_v8, first_result_zero]) (fun k => ?_)
  rw [HostGlue.V3_v13]
  by_cases hg : g.val = 0
  · rw [if_pos hg, if_pos hg, first_result_one]
  · rw [if_neg hg, if_neg hg, first_result_zero]

end Cert.KernelIdeal.ResultValue

end
-- ==== Proof.RefValue.lean ====
/-
  The reference's result as a function of its four arguments.

  The reference embeds both feature matrices, divides every row by its length (kept at or above ε), multiplies the
  first matrix of unit rows by the transpose of the second and by its own transpose, replaces the entries below one
  half by zero, and stacks the two tables. Read stage by stage at an index, that is `CosSim.simOut`: the host's sum
  starts from the zero literal, which adds nothing; the transpose only swaps the coordinates the product reads.
-/
import proofs.«429272_j54683523613020_3_alg».proof.Proof.Gen.ReferenceIdeal.Read
import proofs.«429272_j54683523613020_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

/-! ## The two products of features by weights, at an index

  A `dot_general` over the 128 axis reads its left operand along a row and its right operand down a column: at row
  `r`, column `l` it is the embedding's entry. -/

/-- The first product at row `r`, column `l`. -/
theorem v0_ix2 (x : (⟨S8192x128, .f32⟩ : BufTy).Contents (Elt Ideal)) (w : (⟨S128x64, .f32⟩ : BufTy).Contents (Elt Ideal))
    (r : Fin 8192) (l : Fin 64) : val_main_v0 (F := Ideal) x w (ix2 r l) = CosSim.embRow x w r l := by
  rw [val_main_v0_apply]
  unfold CosSim.embRow
  refine Finset.sum_congr rfl fun d _ => ?_
  have el : lidx_main_v0 (ix2 r l) d = ix2 r d := funext fun a => by match a with | ⟨0, _⟩ => rfl | ⟨1, _⟩ => rfl
  have er : ridx_main_v0 (ix2 r l) d = ix2 d l := funext fun a => by match a with | ⟨0, _⟩ => rfl | ⟨1, _⟩ => rfl
  rw [el, er]

/-- The second product at row `r`, column `l`. -/
theorem v1_ix2 (x : (⟨S8192x128, .f32⟩ : BufTy).Contents (Elt Ideal)) (w : (⟨S128x64, .f32⟩ : BufTy).Contents (Elt Ideal))
    (r : Fin 8192) (l : Fin 64) : val_main_v1 (F := Ideal) x w (ix2 r l) = CosSim.embRow x w r l := by
  rw [val_main_v1_apply]
  unfold CosSim.embRow
  refine Finset.sum_congr rfl fun d _ => ?_
  have el : lidx_main_v1 (ix2 r l) d = ix2 r d := funext fun a => by match a with | ⟨0, _⟩ => rfl | ⟨1, _⟩ => rfl
  have er : ridx_main_v1 (ix2 r l) d = ix2 d l := funext fun a => by match a with | ⟨0, _⟩ => rfl | ⟨1, _⟩ => rfl
  rw [el, er]

/-! ## Unit rows

  Each of the four normalisations squares the product entry by entry, sums a row's squares starting from the zero
  literal (which adds nothing), takes the root, bounds it below by ε, spreads the bound along the row and divides. At
  row `r` every one of the spreading stages reads the same row `r`, so the quotient's entry `k` is the unit row's. -/

/-- The first embedding's unit rows, as the first table's left factor. -/
theorem v7_ix2 (x : (⟨S8192x128, .f32⟩ : BufTy).Contents (Elt Ideal)) (w : (⟨S128x64, .f32⟩ : BufTy).Contents (Elt Ideal))
    (r : Fin 8192) (k : Fin 64) : val_main_v7 (F := Ideal) x w (ix2 r k) = CosSim.unitEmb x w r k := by
  have hs : ∑ l : Fin 64, val_main_call0_v0 (F := Ideal) x w (idx_main_call0_v1 (idx_main_call0_v2 (idx_main_v6 (ix2 r k))) l)
      = ∑ l : Fin 64, CosSim.embRow x w r l * CosSim.embRow x w r l :=
    Finset.sum_congr rfl fun l _ => by
      have e : idx_main_call0_v1 (idx_main_call0_v2 (idx_main_v6 (ix2 r k))) l = ix2 r l := funext fun a => by match a with | ⟨0, _⟩ => rfl | ⟨1, _⟩ => rfl
      rw [val_main_call0_v0_apply, e, v0_ix2]
      rfl
  rw [val_main_v7_apply, val_main_v6_apply, val_main_v5_apply, val_main_v4_apply, val_main_cst_apply,
    val_main_v2_apply, val_main_call0_v2_apply, val_main_call0_v1_apply, val_main_call0_cst_apply, hs, v0_ix2]
  show Ideal.div _ (max (Ideal.sqrt (Ideal.ofBits .f32 0x00000000#32 + _)) _) = _
  rw [Ideal.ofBits_zero_f32, zero_add]
  rfl

/-- The second embedding's unit rows. -/
theorem v11_ix2 (x : (⟨S8192x128, .f32⟩ : BufTy).Contents (Elt Ideal)) (w : (⟨S128x64, .f32⟩ : BufTy).Contents (Elt Ideal))
    (r : Fin 8192) (k : Fin 64) : val_main_v11 (F := Ideal) x w (ix2 r k) = CosSim.unitEmb x w r k := by
  have hs : ∑ l : Fin 64, val_main_call1_v0 (F := Ideal) x w (idx_main_call1_v1 (idx_main_call1_v2 (idx_main_v10 (ix2 r k))) l)
      = ∑ l : Fin 64, CosSim.embRow x w r l * CosSim.embRow x w r l :=
    Finset.sum_congr rfl fun l _ => by
      have e : idx_main_call1_v1 (idx_main_call1_v2 (idx_main_v10 (ix2 r k))) l = ix2 r l := funext fun a => by match a with | ⟨0, _⟩ => rfl | ⟨1, _⟩ => rfl
      rw [val_main_call1_v0_apply, e, v1_ix2]
      rfl
  rw [val_main_v11_apply, val_main_v10_apply, val_main_v9_apply, val_main_v8_apply, val_main_cst_0_apply,
    val_main_v3_apply, val_main_call1_v2_apply, val_main_call1_v1_apply, val_main_call1_cst_apply, hs, v1_ix2]
  show Ideal.div _ (max (Ideal.sqrt (Ideal.ofBits .f32 0x00000000#32 + _)) _) = _
  rw [Ideal.ofBits_zero_f32, zero_add]
  rfl

/-- The first embedding's unit rows, as the second table's left factor. -/
theorem v23_ix2 (x : (⟨S8192x128, .f32⟩ : BufTy).Contents (Elt Ideal)) (w : (⟨S128x64, .f32⟩ : BufTy).Contents (Elt Ideal))
    (r : Fin 8192) (k : Fin 64) : val_main_v23 (F := Ideal) x w (ix2 r k) = CosSim.unitEmb x w r k := by
  have hs : ∑ l : Fin 64, val_main_call3_v0 (F := Ideal) x w (idx_main_call3_v1 (idx_main_call3_v2 (idx_main_v22 (ix2 r k))) l)
      = ∑ l : Fin 64, CosSim.embRow x w r l * CosSim.embRow x w r l :=
    Finset.sum_congr rfl fun l _ => by
      have e : idx_main_call3_v1 (idx_main_call3_v2 (idx_main_v22 (ix2 r k))) l = ix2 r l := funext fun a => by match a with | ⟨0, _⟩ => rfl | ⟨1, _⟩ => rfl
      rw [val_main_call3_v0_apply, e, v0_ix2]
      rfl
  rw [val_main_v23_apply, val_main_v22_apply, val_main_v21_apply, val_main_v20_apply, val_main_cst_3_apply,
    val_main_v18_apply, val_main_call3_v2_apply, val_main_call3_v1_apply, val_main_call3_cst_apply, hs, v0_ix2]
  show Ideal.div _ (max (Ideal.sqrt (Ideal.ofBits .f32 0x00000000#32 + _)) _) = _
  rw [Ideal.ofBits_zero_f32, zero_add]
  rfl

/-- The first embedding's unit rows, as the second table's right factor. -/
theorem v27_ix2 (x : (⟨S8192x128, .f32⟩ : BufTy).Contents (Elt Ideal)) (w : (⟨S128x64, .f32⟩ : BufTy).Contents (Elt Ideal))
    (r : Fin 8192) (k : Fin 64) : val_main_v27 (F := Ideal) x w (ix2 r k) = CosSim.unitEmb x w r k := by
  have hs : ∑ l : Fin 64, val_main_call4_v0 (F := Ideal) x w (idx_main_call4_v1 (idx_main_call4_v2 (idx_main_v26 (ix2 r k))) l)
      = ∑ l : Fin 64, CosSim.embRow x w r l * CosSim.embRow x w r l :=
    Finset.sum_congr rfl fun l _ => by
      have e : idx_main_call4_v1 (idx_main_call4_v2 (idx_main_v26 (ix2 r k))) l = ix2 r l := funext fun a => by match a with | ⟨0, _⟩ => rfl | ⟨1, _⟩ => rfl
      rw [val_main_call4_v0_apply, e, v0_ix2]
      rfl
  rw [val_main_v27_apply, val_main_v26_apply, val_main_v25_apply, val_main_v24_apply, val_main_cst_4_apply,
    val_main_v19_apply, val_main_call4_v2_apply, val_main_call4_v1_apply, val_main_call4_cst_apply, hs, v0_ix2]
  show Ideal.div _ (max (Ideal.sqrt (Ideal.ofBits .f32 0x00000000#32 + _)) _) = _
  rw [Ideal.ofBits_zero_f32, zero_add]
  rfl

/-! ## The two tables

  The product over the 64 axis of the left unit rows by the transposed right unit rows reads, at row `p` and column
  `q`, row `p` of the left factor against row `q` of the right one: the transpose swaps the two coordinates back.
  The comparison with one half and the selection of the zero literal are then the thresholded inner product. -/

/-- The first table: rows of the first embedding against rows of the second. -/
theorem v17_ix2 (x0 x1 : (⟨S8192x128, .f32⟩ : BufTy).Contents (Elt Ideal)) (x2 x3 : (⟨S128x64, .f32⟩ : BufTy).Contents (Elt Ideal))
    (p q : Fin 8192) : val_main_v17 (F := Ideal) x0 x1 x2 x3 (ix2 p q) = CosSim.dotThr (CosSim.unitEmb x0 x2 p) (CosSim.unitEmb x1 x3 q) := by
  have hd : val_main_v13 (F := Ideal) x0 x1 x2 x3 (ix2 p q) = ∑ k : Fin 64, CosSim.unitEmb x0 x2 p k * CosSim.unitEmb x1 x3 q k := by
    rw [val_main_v13_apply]
    refine Finset.sum_congr rfl fun k _ => ?_
    have el : lidx_main_v13 (ix2 p q) k = ix2 p k := funext fun a => by match a with | ⟨0, _⟩ => rfl | ⟨1, _⟩ => rfl
    have er : idx_main_v12 (ridx_main_v13 (ix2 p q) k) = ix2 q k := funext fun a => by match a with | ⟨0, _⟩ => rfl | ⟨1, _⟩ => rfl
    rw [val_main_v12_apply, el, er, v7_ix2, v11_ix2]
  rw [val_main_v17_apply, val_main_v15_apply, val_main_v14_apply, val_main_cst_1_apply, val_main_v16_apply,
    val_main_cst_2_apply, hd]
  rfl

/-- The second table: rows of the first embedding against themselves. -/
theorem v33_ix2 (x0 : (⟨S8192x128, .f32⟩ : BufTy).Contents (Elt Ideal)) (x2 : (⟨S128x64, .f32⟩ : BufTy).Contents (Elt Ideal))
    (p q : Fin 8192) : val_main_v33 (F := Ideal) x0 x2 (ix2 p q) = CosSim.dotThr (CosSim.unitEmb x0 x2 p) (CosSim.unitEmb x0 x2 q) := by
  have hd : val_main_v29 (F := Ideal) x0 x2 (ix2 p q) = ∑ k : Fin 64, CosSim.unitEmb x0 x2 p k * CosSim.unitEmb x0 x2 q k := by
    rw [val_main_v29_apply]
    refine Finset.sum_congr rfl fun k _ => ?_
    have el : lidx_main_v29 (ix2 p q) k = ix2 p k := funext fun a => by match a with | ⟨0, _⟩ => rfl | ⟨1, _⟩ => rfl
    have er : idx_main_v28 (ridx_main_v29 (ix2 p q) k) = ix2 q k := funext fun a => by match a with | ⟨0, _⟩ => rfl | ⟨1, _⟩ => rfl
    rw [val_main_v28_apply, el, er, v23_ix2, v27_ix2]
  rw [val_main_v33_apply, val_main_v31_apply, val_main_v30_apply, val_main_cst_5_apply, val_main_v32_apply,
    val_main_cst_6_apply, hd]
  rfl

/-! ## The stack of the two tables

  Each table gets a leading axis of extent one and the two are joined along it: coordinate 0 on that axis falls in
  the first piece, coordinate 1 in the second, at its coordinate 0. -/

/-- Table 0 of the stack is the first table. -/
theorem v36_table0 (x0 x1 : (⟨S8192x128, .f32⟩ : BufTy).Contents (Elt Ideal)) (x2 x3 : (⟨S128x64, .f32⟩ : BufTy).Contents (Elt Ideal))
    (g : Fin 2) (hg : g.val = 0) (p q : Fin 8192) :
    val_main_v36 (F := Ideal) x0 x1 x2 x3 (ix3 g p q) = CosSim.simAt x0 x1 x2 x3 g p q := by
  have e : idx_main_v34 (ix3 (⟨0, Nat.one_pos⟩ : Fin 1) p q) = ix2 p q := funext fun a => by match a with | ⟨0, _⟩ => rfl | ⟨1, _⟩ => rfl
  unfold val_main_v36
  refine (concatenate_pair_apply_left (s₁ := S1x8192x8192) (s₂ := S1x8192x8192) (t := S2x8192x8192) 0 _ _
    concatenates_S1x8192x8192_S1x8192x8192_S2x8192x8192_d0 (ix3 g p q) rfl (ix3 (⟨0, Nat.one_pos⟩ : Fin 1) p q)
    (fun b => by match b with | ⟨0, _⟩ => exact hg.symm | ⟨1, _⟩ => rfl | ⟨2, _⟩ => rfl)).trans ?_
  rw [val_main_v34_apply, e, v17_ix2]
  unfold CosSim.simAt
  rw [if_pos hg]

/-- Table 1 of the stack is the second table. -/
theorem v36_table1 (x0 x1 : (⟨S8192x128, .f32⟩ : BufTy).Contents (Elt Ideal)) (x2 x3 : (⟨S128x64, .f32⟩ : BufTy).Contents (Elt Ideal))
    (g : Fin 2) (hg : g.val = 1) (p q : Fin 8192) :
    val_main_v36 (F := Ideal) x0 x1 x2 x3 (ix3 g p q) = CosSim.simAt x0 x1 x2 x3 g p q := by
  have e : idx_main_v35 (ix3 (⟨0, Nat.one_pos⟩ : Fin 1) p q) = ix2 p q := funext fun a => by match a with | ⟨0, _⟩ => rfl | ⟨1, _⟩ => rfl
  unfold val_main_v36
  refine (concatenate_pair_apply_right (s₁ := S1x8192x8192) (s₂ := S1x8192x8192) (t := S2x8192x8192) 0 _ _
    concatenates_S1x8192x8192_S1x8192x8192_S2x8192x8192_d0 (ix3 g p q) rfl rfl (ix3 (⟨0, Nat.one_pos⟩ : Fin 1) p q)
    (fun b hb => by match b, hb with | ⟨0, _⟩, hb => exact (hb rfl).elim | ⟨1, _⟩, _ => rfl | ⟨2, _⟩, _ => rfl)
    (by show 0 + 1 = g.val; omega)).trans ?_
  rw [val_main_v35_apply, e, v33_ix2]
  unfold CosSim.simAt
  rw [if_neg (by omega)]

/-- The reference's last stage is the specification, for any four argument arrays. -/
theorem ref_value (x0 x1 : (⟨S8192x128, .f32⟩ : BufTy).Contents (Elt Ideal)) (x2 x3 : (⟨S128x64, .f32⟩ : BufTy).Contents (Elt Ideal)) :
    val_main_v36 (F := Ideal) x0 x1 x2 x3 = CosSim.simOut x0 x1 x2 x3 := by
  funext i
  obtain ⟨g, p, q, rfl⟩ : ∃ (g : Fin 2) (p q : Fin 8192), i = ix3 g p q := ⟨i 0, i 1, i 2, eq_ix3 i⟩
  rw [CosSim.simOut_ix3]
  rcases Nat.lt_or_ge g.val 1 with h | h
  · exact v36_table0 x0 x1 x2 x3 g (by omega) p q
  · exact v36_table1 x0 x1 x2 x3 g (by omega) p q

end Cert.ReferenceIdeal.RefValue

end
-- ==== Proof.lean ====
/-
  Thresholded cosine similarities: a kernel in two passes against a plain reference.

  Both programs take two feature matrices (8192 × 128) and two weight matrices (128 × 64) and return two 8192 × 8192
  tables. A feature matrix times its weight matrix is an embedding; each embedding row is divided by its Euclidean
  length, the length kept no smaller than the single-precision neighbour of 1e-8; a table entry is the inner product of
  two such unit rows, replaced by zero where it is below one half. Table 0 pairs the rows of the first embedding with
  the rows of the second, table 1 the rows of the first embedding with themselves (`CosSim.simOut`, Proof/Spec.lean).

  The kernel stacks the two feature matrices and the two weight matrices and makes both embeddings' unit rows in one
  pass over a 2 × 4 grid (Proof/Stage0.lean); the host then takes the first table of unit rows out and stacks the two
  tables in the opposite order (Proof/HostGlue.lean), and a second pass over a 2 × 8 × 4 grid writes the 64 tiles of
  thresholded inner products (Proof/Stage1.lean). The reference does the same arithmetic array by array, with a
  transpose before each product (Proof/RefValue.lean). On the extended reals both are the same expression tree entry by
  entry: a product into a zero accumulator is the plain sum of products on either side, a row sum from the zero literal
  adds nothing, a change of layout moves no value. No law that could fail at an infinity is used, so the precondition
  (finite inputs) is never opened.

  The two frames of the kernel are the generated frame certificates; the reference's frame is its generated run with the
  result dropped; nothing was rewritten between the kernel and its idealization, so that conjunct is `True`.
-/
import proofs.«429272_j54683523613020_3_alg».proof.Defs
import proofs.«429272_j54683523613020_3_alg».proof.Proof.Gen.Kernel
import proofs.«429272_j54683523613020_3_alg».proof.Proof.Gen.Kernel.Frame
import proofs.«429272_j54683523613020_3_alg».proof.Proof.Gen.KernelIdeal
import proofs.«429272_j54683523613020_3_alg».proof.Proof.Gen.KernelIdeal.Frame
import proofs.«429272_j54683523613020_3_alg».proof.Proof.Gen.ReferenceIdeal
import proofs.«429272_j54683523613020_3_alg».proof.Proof.Gen.Pre_finite_inputs
import proofs.«429272_j54683523613020_3_alg».proof.Proof.Gen.ReferenceIdeal.Run
import proofs.«429272_j54683523613020_3_alg».proof.Proof.Gen.ReferenceIdeal.Read
import proofs.«429272_j54683523613020_3_alg».proof.Proof.KernelRun
import proofs.«429272_j54683523613020_3_alg».proof.Proof.KernelValue
import proofs.«429272_j54683523613020_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel [Cert.Kernel.Facts] [Cert.Pre_finite_inputs.Facts] : Cert.frame_Kernel :=
  fun m ρ _ => Cert.Kernel.Gen.frame m ρ

/-- The idealized kernel runs and leaves its arguments as launched. -/
theorem frame_kernelIdeal [Cert.KernelIdeal.Facts] [Cert.Pre_finite_inputs.Facts] : Cert.frame_KernelIdeal :=
  fun m ρ _ => Cert.KernelIdeal.Gen.frame m ρ

/-- The reference runs and leaves its arguments as launched: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the four arguments both programs end with `CosSim.simOut` of them in their result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => CosSim.simOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.ResultValue.result_value m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v36_eq, Cert.ReferenceIdeal.RefValue.ref_value,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
